-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x32x32 : Shape := ⟨4, ![16, 64, 32, 32]⟩
abbrev S16384x64 : Shape := ⟨2, ![16384, 64]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16x64x32x32 .f32) (main_arg1 : FVec F S16384x64 .f32) (main_arg2 : FVec F S16384x64 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  main_v13
-- ==== Kernel.lean ====
abbrev S16x64x32x32 : Shape := ⟨4, ![16, 64, 32, 32]⟩
abbrev S16384x64 : Shape := ⟨2, ![16384, 64]⟩
abbrev S16x32x32x64 : Shape := ⟨4, ![16, 32, 32, 64]⟩
abbrev S1x64 : Shape := ⟨2, ![1, 64]⟩
abbrev S4096x64 : Shape := ⟨2, ![4096, 64]⟩
abbrev S64 : Shape := ⟨1, ![64]⟩
abbrev S_ : Shape := ⟨0, ![]⟩
abbrev S1x1 : Shape := ⟨2, ![1, 1]⟩
abbrev S4096 : Shape := ⟨1, ![4096]⟩
abbrev S4096x1 : Shape := ⟨2, ![4096, 1]⟩
abbrev S1 : Shape := ⟨1, ![1]⟩

abbrev nBuf : Space → Nat
  | .hbm => 17
  | .vmem => 13
  | .smem => 0
  | _ => 0

abbrev bufTy : (tb : Table) → Fin (tcTables nBuf tb) → BufTy
  | .hbm, ⟨0, _⟩ => ⟨S16x64x32x32, .f32⟩
  | .hbm, ⟨1, _⟩ => ⟨S16384x64, .f32⟩
  | .hbm, ⟨2, _⟩ => ⟨S16384x64, .f32⟩
  | .hbm, ⟨3, _⟩ => ⟨S16x32x32x64, .f32⟩
  | .hbm, ⟨4, _⟩ => ⟨S16384x64, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S_, .f32⟩
  | .hbm, ⟨11, _⟩ => ⟨S1x64, .f32⟩
  | .hbm, ⟨12, _⟩ => ⟨S1x64, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S1x64, .f32⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | .local _ .vmem, ⟨9, _⟩ => ⟨S4096x64, .f32⟩
  | .local _ .vmem, ⟨10, _⟩ => ⟨S1x64, .f32⟩
  | .local _ .vmem, ⟨11, _⟩ => ⟨S1x64, .f32⟩
  | .local _ .vmem, ⟨12, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  transposes_S16x64x32x32_S16x32x32x64_0_2_3_1 : S16x64x32x32.Transposes [0, 2, 3, 1] S16x32x32x64
  shapeCasts_S16x32x32x64_S16384x64 : S16x32x32x64.ShapeCasts S16384x64
  inb_S1x64_S1x64_0_0 : ∀ a, (![0, 0] : Fin 2 → Nat) a + S1x64.size a ≤ S1x64.size a
  h_S1x64 : 0 < S1x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  shapeCasts_S1x64_S1x64 : S1x64.ShapeCasts S1x64
  reduces_S4096x64_S64 : S4096x64.Reduces [0] S64
  shapeCasts_S64_S1x64 : S64.ShapeCasts S1x64
  bcast_S_S1x64 : S_.BroadcastsInDim S1x64 (![] : Fin 0 → Fin S1x64.rank)
  inb_S1x1_S1x1_0_0 : ∀ a, (![0, 0] : Fin 2 → Nat) a + S1x1.size a ≤ S1x1.size a
  h_S1x1 : 0 < S1x1.numel
  reduces_S4096x64_S4096 : S4096x64.Reduces [1] S4096
  shapeCasts_S4096_S4096x1 : S4096.ShapeCasts S4096x1
  broadcasts_S1x64_S4096x64 : S1x64.Broadcasts S4096x64
  shapeCasts_S1x1_S1x1 : S1x1.ShapeCasts S1x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S16384x64.size a
  hwx0_0 : ∀ i : grid0.Coords, EltTy.bits .f32 = 32 ∨ (Rect.block (s := S16384x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S16384x64.size a
  hwx1_0 : ∀ i : grid1.Coords, EltTy.bits .f32 = 32 ∨ (Rect.block (s := S16384x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S16384x64.size a
  hwx1_1 : ∀ i : grid1.Coords, EltTy.bits .f32 = 32 ∨ (Rect.block (s := S16384x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S16384x64.size a
  hwx1_2 : ∀ i : grid1.Coords, EltTy.bits .f32 = 32 ∨ (Rect.block (s := S16384x64) S4096x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev win0_0 : Pipeline.Window sig grid0 :=
  Pipeline.Window.ofSpec (Memref.whole main_v1) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S1x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x64x32x32 : Shape := ⟨4, ![16, 64, 32, 32]⟩
abbrev S16384x64 : Shape := ⟨2, ![16384, 64]⟩
abbrev S16x32x32x64 : Shape := ⟨4, ![16, 32, 32, 64]⟩
abbrev S_ : Shape := ⟨0, ![]⟩
abbrev S16384 : Shape := ⟨1, ![16384]⟩
abbrev S16384x16384 : Shape := ⟨2, ![16384, 16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S16384x64, .f32⟩
  | .hbm, ⟨2, _⟩ => ⟨S16384x64, .f32⟩
  | .hbm, ⟨3, _⟩ => ⟨S16x32x32x64, .f32⟩
  | .hbm, ⟨4, _⟩ => ⟨S16384x64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S16384x64, .f32⟩
  | .hbm, ⟨9, _⟩ => ⟨S16384x64, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S_, .f32⟩
  | .hbm, ⟨20, _⟩ => ⟨S16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384x16384, .f32⟩
  | .hbm, ⟨25, _⟩ => ⟨S16384x16384, .f32⟩
  | .hbm, ⟨26, _⟩ => ⟨S16384x16384, .f32⟩
  | .hbm, ⟨27, _⟩ => ⟨S16384x1, .f32⟩
  | .hbm, ⟨28, _⟩ => ⟨S16384x16384, .f32⟩
  | .hbm, ⟨29, _⟩ => ⟨S16384x16384, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S16x64x32x32_S16x32x32x64_0_2_3_1 : S16x64x32x32.Transposes [0, 2, 3, 1] S16x32x32x64
  shapeCasts_S16x32x32x64_S16384x64 : S16x32x32x64.ShapeCasts S16384x64
  reducesTo_S16384x64_S16384_d1 : S16384x64.ReducesTo [1] S16384
  h_S_ : 0 < S_.numel
  bcast_S_S16384 : S_.BroadcastsInDim S16384 (![] : Fin 0 → Fin S16384.rank)
  bcast_S_S16384x16384 : S_.BroadcastsInDim S16384x16384 (![] : Fin 0 → Fin S16384x16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  reducesTo_S16384x16384_S16384_d1 : S16384x16384.ReducesTo [1] S16384
  reducesTo_S16384_S_d0 : S16384.ReducesTo [0] S_
  dot_S16384x64_S16384x64_S16384x16384_1_1_0_0_n_n_wf : DotDims.WF S16384x64 S16384x64 S16384x16384 [1] [1] [0] [0] [] []

variable [Facts₀]

def dot_S16384x64_S16384x64_S16384x16384_1_1_0_0_n_n : DotDims S16384x64 S16384x64 S16384x16384 where
  lhsContracting := [1]
  rhsContracting := [1]
  lhsNonContracting := [0]
  rhsNonContracting := [0]
  lhsBatch := []
  rhsBatch := []
  wf := dot_S16384x64_S16384x64_S16384x16384_1_1_0_0_n_n_wf

class Facts : Prop extends Facts₀ where

variable [Facts]
-- ==== Proof.KBody.lean ====
/-
  What one grid point of each kernel leaves in its output buffers, as values.

  The column-sum kernel keeps two 1 × 64 accumulators.  At the first point it stores a zero row into each, reads it
  back, and adds the point's column sums; at a later point it adds them to what the point before left.  The loss kernel
  keeps one 1 × 1 accumulator the same way.  Each buffer after the body is the last store's value (it covers the whole
  buffer), and a load after a store in the same body reads that store's value.
-/
import proofs.«172152_j10651518894749_1_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A later point of the column-sum kernel: the first accumulator becomes its old contents plus the block's column sums. -/
theorem sum_later_1 (c : Dev nD) (i : grid0.Coords) (a1 : Memref sig .tc .vmem S4096x64 .f32) (h1 : a1.IsWhole)
    (a2 : Memref sig .tc .vmem S1x64 .f32) (h2 : a2.IsWhole) (a3 : Memref sig .tc .vmem S1x64 .f32) (h3 : a3.IsWhole)
    (hc : ¬cond0_0 i) (x : Vec F S4096x64 .f32) (xo1 xo2 : Vec F S1x64 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S4096x64) hz, View.ld_unit_zero (S := S1x64) hz]

/-- The second accumulator likewise, with the column sums of the squares. -/
theorem sum_later_2 (c : Dev nD) (i : grid0.Coords) (a1 : Memref sig .tc .vmem S4096x64 .f32) (h1 : a1.IsWhole)
    (a2 : Memref sig .tc .vmem S1x64 .f32) (h2 : a2.IsWhole) (a3 : Memref sig .tc .vmem S1x64 .f32) (h3 : a3.IsWhole)
    (hc : ¬cond0_0 i) (x : Vec F S4096x64 .f32) (xo1 xo2 : Vec F S1x64 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S4096x64) hz, View.ld_unit_zero (S := S1x64) hz]

/-- The first point of the column-sum kernel: the first accumulator is the zero row plus the block's column sums. -/
theorem sum_first_1 (c : Dev nD) (i : grid0.Coords) (a1 : Memref sig .tc .vmem S4096x64 .f32) (h1 : a1.IsWhole)
    (a2 : Memref sig .tc .vmem S1x64 .f32) (h2 : a2.IsWhole) (a3 : Memref sig .tc .vmem S1x64 .f32) (h3 : a3.IsWhole)
    (hc : cond0_0 i) (x : Vec F S4096x64 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S4096x64) hz, View.ld_unit_zero (S := S1x64) hz]

/-- The second accumulator at the first point. -/
theorem sum_first_2 (c : Dev nD) (i : grid0.Coords) (a1 : Memref sig .tc .vmem S4096x64 .f32) (h1 : a1.IsWhole)
    (a2 : Memref sig .tc .vmem S1x64 .f32) (h2 : a2.IsWhole) (a3 : Memref sig .tc .vmem S1x64 .f32) (h3 : a3.IsWhole)
    (hc : cond0_0 i) (x : Vec F S4096x64 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x64) hz, View.readCov_unit_zero (S := S1x64) _ hz]
  simp only [View.readAt_eq_ld, h1.read_unread, View.ld_unit_zero (S := S4096x64) hz, View.ld_unit_zero (S := S1x64) hz]

/-- A later point of the loss kernel: the accumulator becomes its old contents plus the block's row losses summed. -/
theorem loss_later (c : Dev nD) (i : grid1.Coords) (a1 : Memref sig .tc .vmem S4096x64 .f32) (h1 : a1.IsWhole)
    (a2 : Memref sig .tc .vmem S4096x64 .f32) (h2 : a2.IsWhole) (a3 : Memref sig .tc .vmem S4096x64 .f32) (h3 : a3.IsWhole)
    (a4 : Memref sig .tc .vmem S1x64 .f32) (h4 : a4.IsWhole) (a5 : Memref sig .tc .vmem S1x64 .f32) (h5 : a5.IsWhole)
    (a6 : Memref sig .tc .vmem S1x1 .f32) (h6 : a6.IsWhole) (hc : ¬cond1_0 i)
    (x0 x1 x2 : Vec F S4096x64 .f32) (x3 x4 : Vec F S1x64 .f32) (xo : Vec F S1x1 .f32) :
    out1_B_5 c i a1 h1 a2 h2 a3 h3 a4 h4 a5 h5 a6 h6 hc x0 x1 x2 x3 x4 xo
      = k1_pay1 (k1_pay4 x0 x1 x2) (k1_pay5 x1 x2 x3 x4) (Scalar.ofBits .f32 0xBF000000#32) xo := by
  unfold out1_B_5
  rw [View.read_writes_eq_canon _ _ _ (cover1_B_5 c i a1 h1 a2 h2 a3 h3 a4 h4 a5 h5 a6 h6 hc x0 x1 x2 x3 x4 xo)]
  unfold kernelRun1_B
  dsimp only
  sl_unfold_words
  rw [View.canon_unit_zero hz]
  simp only [View.readAt_eq_ld, h1.read_unread, h2.read_unread, h3.read_unread, h4.read_unread, h5.read_unread, h6.read_unread,
    View.ld_unit_zero (S := S4096x64) hz, View.ld_unit_zero (S := S1x64) hz, View.ld_unit_zero (S := S1x1) hz]

/-- The first point of the loss kernel: the accumulator is the zero entry plus the block's row losses summed. -/
theorem loss_first (c : Dev nD) (i : grid1.Coords) (a1 : Memref sig .tc .vmem S4096x64 .f32) (h1 : a1.IsWhole)
    (a2 : Memref sig .tc .vmem S4096x64 .f32) (h2 : a2.IsWhole) (a3 : Memref sig .tc .vmem S4096x64 .f32) (h3 : a3.IsWhole)
    (a4 : Memref sig .tc .vmem S1x64 .f32) (h4 : a4.IsWhole) (a5 : Memref sig .tc .vmem S1x64 .f32) (h5 : a5.IsWhole)
    (a6 : Memref sig .tc .vmem S1x1 .f32) (h6 : a6.IsWhole) (hc : cond1_0 i)
    (x0 x1 x2 : Vec F S4096x64 .f32) (x3 x4 : Vec F S1x64 .f32) :
    out1_A_5 c i a1 h1 a2 h2 a3 h3 a4 h4 a5 h5 a6 h6 hc x0 x1 x2 x3 x4
      = k1_pay1 (k1_pay4 x0 x1 x2) (k1_pay5 x1 x2 x3 x4) (Scalar.ofBits .f32 0xBF000000#32) (k1_pay2 (F := F)) := by
  unfold out1_A_5
  rw [View.read_writes_eq_canon _ _ _ (cover1_A_5 c i a1 h1 a2 h2 a3 h3 a4 h4 a5 h5 a6 h6 hc x0 x1 x2 x3 x4)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S4096x64) hz, View.ld_unit_zero (S := S1x64) hz, View.ld_unit_zero (S := S1x1) hz]

end Cert.KernelIdeal.Body

end
-- ==== Proof.KFold.lean ====
/-
  The kernel's result buffer, folded back through @main to the launch memory.

  @main is: two host operations (the input transposed and flattened to 16384 × 64); the column-sum region, whose two
  1 × 64 outputs are written back once, after the last of four grid points; six host operations (each sum divided by
  the row count); the loss region, whose 1 × 1 output is likewise written back after its last point; three host
  operations (the 1 × 1 output reshaped to a scalar and divided by the row count).  Each accumulator after point n is
  the body's value at the point's input blocks over what point n - 1 left, so the arrays end at the fourth iterate.
-/
import proofs.«172152_j10651518894749_1_alg».proof.Proof.KBody
import Idealize.ShloMosaic.Lib.Pipeline.Value
import Idealize.ShloMosaic.Lib.StableHlo.Run
import Idealize.ShloMosaic.Lib.Tactic

noncomputable section

namespace Cert.KernelIdeal.Fold

open Idealize.ShloMosaic Idealize.ShloMosaic.TcCoe Idealize.SL.Sem
open Idealize.ShloMosaic.Pipeline (Dat)
open Cert.KernelIdeal Cert.KernelIdeal.Gen Cert.KernelIdeal.Body

variable {F : FTy → Type} [FloatOps F]

section Regions
variable (V : (c : Dev nD) → (b : Ref sig .tc) → Buf (Elt F) ((c : Thread nD τ).loc b))

/-! ## The column-sum region -/

/-- The rows block of the flattened input at point t, as a 4096 × 64 vector. -/
abbrev rows0 (c : Dev nD) (t : Fin cfg0.N) : Vec F S4096x64 .f32 := iblk0 V c 0 t

/-- The two accumulators after point n: from the zero rows at the first point, each point adds its block's column sums. -/
def sums (c : Dev nD) : (n : ℕ) → n < cfg0.N → Vec F S1x64 .f32 × Vec F S1x64 .f32
  | 0, h => (k0_pay4 (rows0 V c ⟨0, h⟩) (k0_pay1 (F := F)), k0_pay5 (rows0 V c ⟨0, h⟩) (k0_pay2 (F := F)))
  | n + 1, h => (k0_pay4 (rows0 V c ⟨n + 1, h⟩) (sums c n (Nat.lt_of_succ_lt h)).1,
      k0_pay5 (rows0 V c ⟨n + 1, h⟩) (sums c n (Nat.lt_of_succ_lt h)).2)

/-- What the output buffers hold after point n is that iterate: by induction on the point. -/
theorem outsAt0_eq (c : Dev nD) : ∀ (n : ℕ) (h : n < cfg0.N), outsAt0 V c n h = sums V c n h
  | 0, h => by
    rw [outsAt0_A V c ⟨0, h⟩ rfl, sum_first_1, sum_first_2]
    rfl
  | n + 1, h => by
    have hN : cfg0.N = 4 := N_0
    have hB : ¬(⟨n + 1, h⟩ : Fin cfg0.N).val % 4 = 0 := by dsimp only; omega
    rw [outsAt0_B V c ⟨n + 1, h⟩ hB, sum_later_1, sum_later_2]
    show (k0_pay4 _ (outsAt0 V c n _).1, k0_pay5 _ (outsAt0 V c n _).2) = _
    rw [outsAt0_eq c n]
    rfl

theorem three_lt0 : 3 < cfg0.N := by rw [show cfg0.N = 4 from N_0]; decide

/-- The column sums after the last point, as contents of the first output array (its one block is the array). -/
abbrev colSum (c : Dev nD) : Buf (Elt F) ((c : Thread nD τ).loc main_v2_0) := (sums V c 3 three_lt0).1
/-- The column sums of the squares, as contents of the second output array. -/
abbrev colSumSq (c : Dev nD) : Buf (Elt F) ((c : Thread nD τ).loc main_v2_1) := (sums V c 3 three_lt0).2

/-- The one write-back of the first output, after the last point, writes the whole array: its block at index (0, 0) read
    through zero offsets is the array. -/
theorem flushed0_1_eq (c : Dev nD) (t : Fin cfg0.N) (hf : (cfg0.win 1).flush t = true) :
    (dat0 V c).flushed 1 t = ((cfg0.win 1).blk t).view.read (Elt F) (colSum V c) := by
  have hN : cfg0.N = 4 := N_0
  have h3 : t.val = 3 := by have := (flush0_1 t).mp hf; have := t.isLt; omega
  obtain rfl : t = t0_3 := Fin.ext h3
  show (cfg0.win 1).cut (grid0.coords t0_3) ((dat0 V c).after 1 t0_3) = _
  rw [after0_1, outsAt0_eq]
  have hz' : (fun a => win0_1.index t0_3 a * main_v2_0.ty.shape.size a) = fun _ => 0 := funext fun a => by fin_cases a <;> decide
  exact (Memref.read_access_unit_zero (Elt F) main_v2_0 hz' (fun a => by rw [congrFun hz' a]; simp) (colSum V c)).symm

theorem flushed0_2_eq (c : Dev nD) (t : Fin cfg0.N) (hf : (cfg0.win 2).flush t = true) :
    (dat0 V c).flushed 2 t = ((cfg0.win 2).blk t).view.read (Elt F) (colSumSq V c) := by
  have hN : cfg0.N = 4 := N_0
  have h3 : t.val = 3 := by have := (flush0_2 t).mp hf; have := t.isLt; omega
  obtain rfl : t = t0_3 := Fin.ext h3
  show (cfg0.win 2).cut (grid0.coords t0_3) ((dat0 V c).after 2 t0_3) = _
  rw [after0_2, outsAt0_eq]
  have hz' : (fun a => win0_2.index t0_3 a * main_v2_1.ty.shape.size a) = fun _ => 0 := funext fun a => by fin_cases a <;> decide
  exact (Memref.read_access_unit_zero (Elt F) main_v2_1 hz' (fun a => by rw [congrFun hz' a]; simp) (colSumSq V c)).symm

/-- So the first output array ends at the column sums: the last point's block covers it. -/
theorem arr0_1 (c : Dev nD) : (dat0 V c).arrAt 1 cfg0.N = colSum V c :=
  (dat0 V c).arrAt_eq_of_cover 1 (colSum V c) (flushed0_1_eq V c) fun i =>
    ⟨t0_3, (flush0_1 t0_3).mpr rfl, by
      show i ∈ ((View.whole main_v2_0).slice (win0_1.rect t0_3)).set
      rw [View.set_slice_whole, Rect.mem_set_unit]
      intro a
      have h0 : (i 0 : Nat) < 1 := (i 0).isLt
      have h1 : (i 1 : Nat) < 64 := (i 1).isLt
      match a with
      | ⟨0, _⟩ => show win0_1.index t0_3 0 * win0_1.size 0 ≤ (i 0 : Nat) ∧ (i 0 : Nat) < win0_1.index t0_3 0 * win0_1.size 0 + win0_1.xsize (grid0.coords t0_3) 0
                  rw [show win0_1.index t0_3 0 * win0_1.size 0 = 0 from by decide +kernel, show win0_1.xsize (grid0.coords t0_3) 0 = 1 from by decide +kernel]; omega
      | ⟨1, _⟩ => show win0_1.index t0_3 1 * win0_1.size 1 ≤ (i 1 : Nat) ∧ (i 1 : Nat) < win0_1.index t0_3 1 * win0_1.size 1 + win0_1.xsize (grid0.coords t0_3) 1
                  rw [show win0_1.index t0_3 1 * win0_1.size 1 = 0 from by decide +kernel, show win0_1.xsize (grid0.coords t0_3) 1 = 64 from by decide +kernel]; omega⟩

theorem arr0_2 (c : Dev nD) : (dat0 V c).arrAt 2 cfg0.N = colSumSq V c :=
  (dat0 V c).arrAt_eq_of_cover 2 (colSumSq V c) (flushed0_2_eq V c) fun i =>
    ⟨t0_3, (flush0_2 t0_3).mpr rfl, by
      show i ∈ ((View.whole main_v2_1).slice (win0_2.rect t0_3)).set
      rw [View.set_slice_whole, Rect.mem_set_unit]
      intro a
      have h0 : (i 0 : Nat) < 1 := (i 0).isLt
      have h1 : (i 1 : Nat) < 64 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 64 from by decide +kernel]; omega⟩

/-! ## The loss region -/

/-- The point's blocks, each as a vector of its literal shape: the rows of the flattened input, of the means and of the
    log-variances, and the two 1 × 64 rows of column means (their one block is the whole array at every point). -/
abbrev xRows (c : Dev nD) (t : Fin cfg1.N) : Vec F S4096x64 .f32 := iblk1 V c 0 t
abbrev muRows (c : Dev nD) (t : Fin cfg1.N) : Vec F S4096x64 .f32 := iblk1 V c 1 t
abbrev lvRows (c : Dev nD) (t : Fin cfg1.N) : Vec F S4096x64 .f32 := iblk1 V c 2 t
abbrev meanRow (c : Dev nD) (t : Fin cfg1.N) : Vec F S1x64 .f32 := iblk1 V c 3 t
abbrev meanSqRow (c : Dev nD) (t : Fin cfg1.N) : Vec F S1x64 .f32 := iblk1 V c 4 t

/-- One point of the loss kernel on an accumulator: the accumulator plus the block's row losses summed. -/
def tileStep (c : Dev nD) (t : Fin cfg1.N) (acc : Vec F S1x1 .f32) : Vec F S1x1 .f32 :=
  k1_pay1 (k1_pay4 (xRows V c t) (muRows V c t) (lvRows V c t)) (k1_pay5 (muRows V c t) (lvRows V c t) (meanRow V c t) (meanSqRow V c t))
    (Scalar.ofBits .f32 0xBF000000#32) acc

/-- The accumulator after point n, from the zero entry at the first point. -/
def losses (c : Dev nD) : (n : ℕ) → n < cfg1.N → Vec F S1x1 .f32
  | 0, h => tileStep V c ⟨0, h⟩ (k1_pay2 (F := F))
  | n + 1, h => tileStep V c ⟨n + 1, h⟩ (losses c n (Nat.lt_of_succ_lt h))

theorem outsAt1_eq (c : Dev nD) : ∀ (n : ℕ) (h : n < cfg1.N), outsAt1 V c n h = losses V c n h
  | 0, h => by
    rw [outsAt1_A V c ⟨0, h⟩ rfl, loss_first]
    rfl
  | n + 1, h => by
    have hN : cfg1.N = 4 := N_1
    have hB : ¬(⟨n + 1, h⟩ : Fin cfg1.N).val % 4 = 0 := by dsimp only; omega
    rw [outsAt1_B V c ⟨n + 1, h⟩ hB, loss_later]
    show k1_pay1 _ _ _ (outsAt1 V c n _) = _
    rw [outsAt1_eq c n]
    rfl

theorem three_lt1 : 3 < cfg1.N := by rw [show cfg1.N = 4 from N_1]; decide

/-- The accumulated loss after the last point, as contents of the 1 × 1 output array. -/
abbrev lossSum (c : Dev nD) : Buf (Elt F) ((c : Thread nD τ).loc main_v7) := losses V c 3 three_lt1

theorem flushed1_5_eq (c : Dev nD) (t : Fin cfg1.N) (hf : (cfg1.win 5).flush t = true) :
    (dat1 V c).flushed 5 t = ((cfg1.win 5).blk t).view.read (Elt F) (lossSum V c) := by
  have hN : cfg1.N = 4 := N_1
  have h3 : t.val = 3 := by have := (flush1_5 t).mp hf; have := t.isLt; omega
  obtain rfl : t = t1_3 := Fin.ext h3
  show (cfg1.win 5).cut (grid1.coords t1_3) ((dat1 V c).after 5 t1_3) = _
  rw [after1_5, outsAt1_eq]
  have hz' : (fun a => win1_5.index t1_3 a * main_v7.ty.shape.size a) = fun _ => 0 := funext fun a => by fin_cases a <;> decide
  exact (Memref.read_access_unit_zero (Elt F) main_v7 hz' (fun a => by rw [congrFun hz' a]; simp) (lossSum V c)).symm

theorem arr1_5 (c : Dev nD) : (dat1 V c).arrAt 5 cfg1.N = lossSum V c :=
  (dat1 V c).arrAt_eq_of_cover 5 (lossSum V c) (flushed1_5_eq V c) fun i =>
    ⟨t1_3, (flush1_5 t1_3).mpr rfl, by
      show i ∈ ((View.whole main_v7).slice (win1_5.rect t1_3)).set
      rw [View.set_slice_whole, Rect.mem_set_unit]
      intro a
      have h0 : (i 0 : Nat) < 1 := (i 0).isLt
      have h1 : (i 1 : Nat) < 1 := (i 1).isLt
      match a with
      | ⟨0, _⟩ => show win1_5.index t1_3 0 * win1_5.size 0 ≤ (i 0 : Nat) ∧ (i 0 : Nat) < win1_5.index t1_3 0 * win1_5.size 0 + win1_5.xsize (grid1.coords t1_3) 0
                  rw [show win1_5.index t1_3 0 * win1_5.size 0 = 0 from by decide +kernel, show win1_5.xsize (grid1.coords t1_3) 0 = 1 from by decide +kernel]; omega
      | ⟨1, _⟩ => show win1_5.index t1_3 1 * win1_5.size 1 ≤ (i 1 : Nat) ∧ (i 1 : Nat) < win1_5.index t1_3 1 * win1_5.size 1 + win1_5.xsize (grid1.coords t1_3) 1
                  rw [show win1_5.index t1_3 1 * win1_5.size 1 = 0 from by decide +kernel, show win1_5.xsize (grid1.coords t1_3) 1 = 1 from by decide +kernel]; omega⟩

end Regions

/-! ## The fold through @main -/

variable (m : (ℓ : Loc nD τ sig) → Buf (Elt F) ℓ) (ρ : Dev nD → PrngReg)

/-- The result: the loss region's output reshaped to a scalar and divided by the row count. -/
theorem result_eq (c : Dev nD) : W5 m ρ c (Proc.devRef .tc main_v9)
    = Host.divf (shapeCast S_ (lossSum (V3 m ρ) c) shapeCasts_S1x1_S_) (constant S_ .f32 0x46800000#32) := by
  show StableHlo.after hostOps2 (W4 m ρ c) (Proc.devRef .tc main_v9) = _
  after_results
  have e : W4 m ρ c (Proc.devRef .tc main_v7) = lossSum (V3 m ρ) c := (W4_arr m ρ c 5).trans (arr1_5 (V3 m ρ) c)
  rw [e]; rfl

/-- The flattened input, as @main's first two host operations compute it. -/
abbrev flat (x : Vec F S16x64x32x32 .f32) : Vec F S16384x64 .f32 :=
  shapeCast S16384x64 (transpose S16x32x32x64 [0, 2, 3, 1] x transposes_S16x64x32x32_S16x32x32x64_0_2_3_1) shapeCasts_S16x32x32x64_S16384x64

/-- The column-sum region is entered with the flattened input in its input array. -/
theorem V1_flat (c : Dev nD) : V1 m ρ c main_v1 = flat (m ((c : Thread nD τ).loc main_arg0)) := by
  show StableHlo.after hostOps0 (W0 m ρ c) (Proc.devRef .tc main_v1) = _
  after_results
  rfl

/-- A buffer neither host stretch before the loss region writes, and that is no output of the column-sum region, holds
    at the loss region's entry what the column-sum region's entry held. -/
theorem W2_v1 (c : Dev nD) : W2 m ρ c (Proc.devRef .tc main_v1) = flat (m ((c : Thread nD τ).loc main_arg0)) :=
  (W2_arr m ρ c 0).trans (((dat0 (V1 m ρ) c).arrAt_in 0 rfl _).trans ((A_eq0 (V1 m ρ) c 0).trans (V1_flat m ρ c)))

/-- The loss region is entered with: the flattened input as the column-sum region found it, -/
theorem V3_flat (c : Dev nD) : V3 m ρ c main_v1 = flat (m ((c : Thread nD τ).loc main_arg0)) := by
  show StableHlo.after hostOps1 (W2 m ρ c) (Proc.devRef .tc main_v1) = _
  after_results
  exact W2_v1 m ρ c

/-- the means as launched, -/
theorem V3_arg1 (c : Dev nD) : V3 m ρ c main_arg1 = m ((c : Thread nD τ).loc main_arg1) := by
  show StableHlo.after hostOps1 (W2 m ρ c) (Proc.devRef .tc main_arg1) = _
  after_results
  refine (W2_of_ne m ρ c main_arg1 (by decide)).trans ?_
  show StableHlo.after hostOps0 (W0 m ρ c) (Proc.devRef .tc main_arg1) = _
  after_results
  try rfl

/-- the log-variances as launched, -/
theorem V3_arg2 (c : Dev nD) : V3 m ρ c main_arg2 = m ((c : Thread nD τ).loc main_arg2) := by
  show StableHlo.after hostOps1 (W2 m ρ c) (Proc.devRef .tc main_arg2) = _
  after_results
  refine (W2_of_ne m ρ c main_arg2 (by decide)).trans ?_
  show StableHlo.after hostOps0 (W0 m ρ c) (Proc.devRef .tc main_arg2) = _
  after_results
  try rfl

/-- and each column sum divided by the row count. -/
theorem V3_mean (c : Dev nD) : V3 m ρ c main_v4
    = Host.divf (colSum (V1 m ρ) c) (broadcastInDim S1x64 ![] bcast_S_S1x64 (constant S_ .f32 0x46800000#32)) := by
  show StableHlo.after hostOps1 (W2 m ρ c) (Proc.devRef .tc main_v4) = _
  after_results
  have e : W2 m ρ c (Proc.devRef .tc main_v2_0) = colSum (V1 m ρ) c := (W2_arr m ρ c 1).trans (arr0_1 (V1 m ρ) c)
  rw [e]

theorem V3_meanSq (c : Dev nD) : V3 m ρ c main_v6
    = Host.divf (colSumSq (V1 m ρ) c) (broadcastInDim S1x64 ![] bcast_S_S1x64 (constant S_ .f32 0x46800000#32)) := by
  show StableHlo.after hostOps1 (W2 m ρ c) (Proc.devRef .tc main_v6) = _
  after_results
  have e : W2 m ρ c (Proc.devRef .tc main_v2_1) = colSumSq (V1 m ρ) c := (W2_arr m ρ c 2).trans (arr0_2 (V1 m ρ) c)
  rw [e]

end Cert.KernelIdeal.Fold

end
-- ==== Proof.Spec.lean ====
/-
  The two programs as closed formulas over the extended reals.

  Inputs: three 16384 × 64 matrices, read entry by entry: X (the rows of the flattened input), M (the means) and
  L (the log-variances); the inverse variance is e = exp(-L).  With
      pos i   = Σ_d (X i d - M i d)² · e i d            c i = Σ_d (M i d)² · e i d
  the reference forms the pairwise matrix
      D i j   = Σ_d e i d · (X j d)²  -  2 · Σ_d (M i d · e i d) · X j d  +  c i ,
  averages it over j, and averages  (-½ · pos i) - (-½ · mean_j D i j)  over i.  The kernel never forms D: it first
  takes the column means of X and of X² (each accumulated over four tiles of 4096 rows), then per row
      (-½ · pos i) - (-½ · (Σ_d e i d · meanX² d  -  2 · Σ_d (M i d · e i d) · meanX d  +  c i)),
  summed tile by tile and divided by the row count.  The three float literals (-½, 2, 16384) are kept as the
  words both programs print.
-/
import Idealize.ShloMosaic.PureOps.Ideal
import Idealize.ShloMosaic.Lib.ValueIdx

noncomputable section

namespace Cert.Loss

open Idealize.ShloMosaic

/-- The literal -0.5 as both programs print it. -/
abbrev negHalf : EReal := Ideal.ofBits .f32 0xBF000000#32
/-- The literal 2.0. -/
abbrev two : EReal := Ideal.ofBits .f32 0x40000000#32
/-- The literal 16384.0, the number of rows. -/
abbrev cnt : EReal := Ideal.ofBits .f32 0x46800000#32

/-- A 16384 × 64 matrix of extended reals, by row and column. -/
abbrev Mat : Type := Fin 16384 → Fin 64 → EReal

/-- A rank-2 array of that shape read as a matrix. -/
abbrev mat (a : (⟨2, ![16384, 64]⟩ : Shape).Idx → EReal) : Mat := fun i d => a (ValueIdx.ix2 i d)

/-- The inverse variance exp(-L). -/
def invVar (L : Mat) (i : Fin 16384) (d : Fin 64) : EReal := Ideal.exp (-(L i d))

/-- Σ_d (X - M)² · e on row i. -/
def pos (X M L : Mat) (i : Fin 16384) : EReal := ∑ d : Fin 64, ((X i d - M i d) * (X i d - M i d)) * invVar L i d

/-- Σ_d M² · e on row i. -/
def cterm (M L : Mat) (i : Fin 16384) : EReal := ∑ d : Fin 64, (M i d * M i d) * invVar L i d

/-! ## The reference -/

/-- The pairwise entry D i j. -/
def pairD (X M L : Mat) (i j : Fin 16384) : EReal :=
  ((∑ d : Fin 64, invVar L i d * (X j d * X j d)) - two * (∑ d : Fin 64, (M i d * invVar L i d) * X j d)) + (0 + cterm M L i)

/-- The reference's result. -/
def refLoss (X M L : Mat) : EReal :=
  Ideal.div (0 + ∑ i : Fin 16384,
    (negHalf * (0 + pos X M L i) - negHalf * Ideal.div (0 + ∑ j : Fin 16384, pairD X M L i j) cnt)) cnt

/-! ## The kernel -/

/-- Row r of tile t. -/
def rowOf (t : Fin 4) (r : Fin 4096) : Fin 16384 := ⟨4096 * t.val + r.val, by omega⟩

/-- An accumulator reset to zero at the first tile and added to at each of the four. -/
def chain4 (f : Fin 4 → EReal) : EReal := (((0 + f 0) + f 1) + f 2) + f 3

/-- The column mean of X. -/
def meanX (X : Mat) (d : Fin 64) : EReal := Ideal.div (chain4 fun t => ∑ r : Fin 4096, X (rowOf t r) d) cnt

/-- The column mean of X². -/
def meanX2 (X : Mat) (d : Fin 64) : EReal :=
  Ideal.div (chain4 fun t => ∑ r : Fin 4096, X (rowOf t r) d * X (rowOf t r) d) cnt

/-- One row's contribution in the kernel. -/
def rowLoss (X M L : Mat) (i : Fin 16384) : EReal :=
  negHalf * pos X M L i
    - negHalf * (((∑ d : Fin 64, invVar L i d * meanX2 X d) - two * (∑ d : Fin 64, (M i d * invVar L i d) * meanX X d))
        + cterm M L i)

/-- The kernel's result. -/
def kerLoss (X M L : Mat) : EReal := Ideal.div (chain4 fun t => ∑ r : Fin 4096, rowLoss X M L (rowOf t r)) cnt

end Cert.Loss

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KPay.lean ====
/-
  The kernels' arithmetic read entry by entry over the extended reals.
-/
import proofs.«172152_j10651518894749_1_alg».proof.Proof.Gen.KernelIdeal.Skeleton
import proofs.«172152_j10651518894749_1_alg».proof.Proof.Spec
import proofs.«172152_j10651518894749_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.ShloMosaic.Keepdims
open Cert.KernelIdeal Cert.KernelIdeal.Gen

/-! ## Sums along one axis -/

/-- A 4096 × 64 array summed along its rows: at column d, the sum over the rows. -/
theorem sum_rows (v : FVec Ideal S4096x64 .f32) (h : S4096x64.Reduces [0] S64) (hφ : FKind.Formats .f32)
    (hacc : (0x00000000#32 : BitVec 32) = FKind.add.neutral .f32 hφ) (d : Fin 64) :
    multiReduction (F := Ideal) .add [0] S64 v 0x00000000#32 h hφ hacc (ix1 d) = ∑ r : Fin 4096, v (ix2 r d) :=
  (Ideal.multiReduction_add_single v _ h hφ hacc (ix1 d)).trans
    (Finset.sum_congr rfl fun r _ => congrArg v (funext fun a => by match a with | ⟨0, _⟩ => rfl | ⟨1, _⟩ => rfl))

/-- A 4096 × 64 array summed along its columns: at row r, the sum over the columns. -/
theorem sum_cols (v : FVec Ideal S4096x64 .f32) (h : S4096x64.Reduces [1] S4096) (hφ : FKind.Formats .f32)
    (hacc : (0x00000000#32 : BitVec 32) = FKind.add.neutral .f32 hφ) (r : Fin 4096) :
    multiReduction (F := Ideal) .add [1] S4096 v 0x00000000#32 h hφ hacc (ix1 r) = ∑ d : Fin 64, v (ix2 r d) :=
  (Ideal.multiReduction_add_single v _ h hφ hacc (ix1 r)).trans
    (Finset.sum_congr rfl fun d _ => congrArg v (funext fun a => by match a with | ⟨0, _⟩ => rfl | ⟨1, _⟩ => rfl))

/-- A 4096 × 1 column summed along its rows. -/
theorem sum_col1 (v : FVec Ideal S4096x1 .f32) (h : S4096x1.Reduces [0] S1) (hφ : FKind.Formats .f32)
    (hacc : (0x00000000#32 : BitVec 32) = FKind.add.neutral .f32 hφ) (u : Fin 1) :
    multiReduction (F := Ideal) .add [0] S1 v 0x00000000#32 h hφ hacc (ix1 u) = ∑ r : Fin 4096, v (ix2 r u) :=
  (Ideal.multiReduction_add_single v _ h hφ hacc (ix1 u)).trans
    (Finset.sum_congr rfl fun r _ => congrArg v (funext fun a => by match a with | ⟨0, _⟩ => rfl | ⟨1, _⟩ => rfl))

/-! ## The column-sum kernel -/

theorem zero_row1 (j : S1x64.Idx) : k0_pay1 (F := Ideal) j = 0 := Ideal.ofBits_zero_f32
theorem zero_row2 (j : S1x64.Idx) : k0_pay2 (F := Ideal) j = 0 := Ideal.ofBits_zero_f32
theorem zero_entry (j : S1x1.Idx) : k1_pay2 (F := Ideal) j = 0 := Ideal.ofBits_zero_f32

/-- The accumulator plus the block's column sums. -/
theorem colsum_apply (x : Vec Ideal S4096x64 .f32) (acc : Vec Ideal S1x64 .f32) (u : Fin 1) (d : Fin 64) :
    k0_pay4 (F := Ideal) x acc (ix2 u d) = acc (ix2 u d) + ∑ r : Fin 4096, x (ix2 r d) := by
  unfold k0_pay4 k0_pay3
  simp only [shapeCast_self]
  show acc (ix2 u d) + _ = _
  congr 1
  rw [shapeCast_a_1a_apply]
  exact sum_rows _ _ _ _ d

/-- The accumulator plus the column sums of the block's squares. -/
theorem colsumsq_apply (x : Vec Ideal S4096x64 .f32) (acc : Vec Ideal S1x64 .f32) (u : Fin 1) (d : Fin 64) :
    k0_pay5 (F := Ideal) x acc (ix2 u d) = acc (ix2 u d) + ∑ r : Fin 4096, x (ix2 r d) * x (ix2 r d) := by
  unfold k0_pay5 k0_pay3
  simp only [shapeCast_self]
  show acc (ix2 u d) + _ = _
  congr 1
  rw [shapeCast_a_1a_apply]
  exact sum_rows _ _ _ _ d

/-! ## The loss kernel -/

/-- The inverse variance of a block of log-variances: exp (0 - L) = exp (-L). -/
theorem invvar_apply (lb : Vec Ideal S4096x64 .f32) (j : S4096x64.Idx) :
    k1_pay3 (F := Ideal) lb j = Ideal.exp (-(lb j)) := by
  show Ideal.exp (Ideal.ofBits .f32 0x00000000#32 - lb j) = _
  rw [Ideal.ofBits_zero_f32, zero_sub]

/-- -½ times the row's Σ_d (X - M)² · e. -/
theorem pos_apply (xb mb lb : Vec Ideal S4096x64 .f32) (r : Fin 4096) (u : Fin 1) :
    k1_pay4 (F := Ideal) xb mb lb (ix2 r u)
      = Cert.Loss.negHalf * ∑ d : Fin 64, ((xb (ix2 r d) - mb (ix2 r d)) * (xb (ix2 r d) - mb (ix2 r d))) * Ideal.exp (-(lb (ix2 r d))) := by
  unfold k1_pay4
  simp only [shapeCast_self]
  show Cert.Loss.negHalf * _ = _
  congr 1
  rw [shapeCast_a_a1_apply]
  refine (sum_cols _ _ _ _ r).trans (Finset.sum_congr rfl fun d _ => ?_)
  show ((xb _ - mb _) * (xb _ - mb _)) * k1_pay3 lb (ix2 r d) = _
  rw [invvar_apply]

/-- The row's bracket: Σ_d e · meanX² - 2 · Σ_d (M · e) · meanX + Σ_d M² · e. -/
theorem bracket_apply (mb lb : Vec Ideal S4096x64 .f32) (mean meansq : Vec Ideal S1x64 .f32) (r : Fin 4096) (u : Fin 1) :
    k1_pay5 (F := Ideal) mb lb mean meansq (ix2 r u)
      = ((∑ d : Fin 64, Ideal.exp (-(lb (ix2 r d))) * meansq (ix2 (0 : Fin 1) d))
          - Cert.Loss.two * (∑ d : Fin 64, (mb (ix2 r d) * Ideal.exp (-(lb (ix2 r d)))) * mean (ix2 (0 : Fin 1) d)))
        + ∑ d : Fin 64, (mb (ix2 r d) * mb (ix2 r d)) * Ideal.exp (-(lb (ix2 r d))) := by
  unfold k1_pay5
  simp only [shapeCast_self]
  show (_ - Cert.Loss.two * _) + _ = _
  congr 1
  · congr 1
    · rw [shapeCast_a_a1_apply]
      refine (sum_cols _ _ _ _ r).trans (Finset.sum_congr rfl fun d _ => ?_)
      show k1_pay3 lb (ix2 r d) * broadcastTo S4096x64 meansq broadcasts_S1x64_S4096x64 (ix2 r d) = _
      rw [invvar_apply, broadcastTo_1b_ab_apply]
    · congr 1
      rw [shapeCast_a_a1_apply]
      refine (sum_cols _ _ _ _ r).trans (Finset.sum_congr rfl fun d _ => ?_)
      show (mb (ix2 r d) * k1_pay3 lb (ix2 r d)) * broadcastTo S4096x64 mean broadcasts_S1x64_S4096x64 (ix2 r d) = _
      rw [invvar_apply, broadcastTo_1b_ab_apply]
  · rw [shapeCast_a_a1_apply]
    refine (sum_cols _ _ _ _ r).trans (Finset.sum_congr rfl fun d _ => ?_)
    show (mb (ix2 r d) * mb (ix2 r d)) * k1_pay3 lb (ix2 r d) = _
    rw [invvar_apply]

/-- One point of the loss kernel: the accumulator plus, summed over the block's rows, the first column minus the literal
    times the second. -/
theorem tile_apply (v20 v37 : FVec Ideal S4096x1 .f32) (k : Ideal .f32) (acc : Vec Ideal S1x1 .f32) (u u' : Fin 1) :
    k1_pay1 (F := Ideal) v20 v37 k acc (ix2 u u') = acc (ix2 u u') + ∑ r : Fin 4096, (v20 (ix2 r u') - k * v37 (ix2 r u')) := by
  unfold k1_pay1
  simp only [shapeCast_self]
  show acc (ix2 u u') + _ = _
  congr 1
  rw [shapeCast_a_1a_apply]
  exact sum_col1 _ _ _ _ u'

end Cert.KernelIdeal.Pay

end
-- ==== Proof.KValue.lean ====
/-
  The kernel's result as the closed formula.

  A window's block at grid point t holds rows 4096·t … 4096·t + 4095 of its array (all 64 columns); the two rows of
  column means are whole arrays at every point.  Reading the accumulators' iterates entry by entry turns the fold
  through @main into the formula: the column sums are four-tile chains of row sums, the means those divided by the
  row count, and the loss the four-tile chain of row losses divided by the row count.
-/
import proofs.«172152_j10651518894749_1_alg».proof.Proof.KFold
import proofs.«172152_j10651518894749_1_alg».proof.Proof.KPay

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fold Cert.KernelIdeal.Pay Cert.Loss

section Regions
variable (V : (c : Dev nD) → (b : Ref sig .tc) → Buf (Elt Ideal) ((c : Thread nD τ).loc b)) (c : Dev nD)

/-- Row r of the block at point t of a four-point grid. -/
abbrev rowAt (n : ℕ) (hn : n < 4) (r : Fin 4096) : Fin 16384 := ⟨4096 * n + r.val, by omega⟩

theorem lt4_0 (t : Fin cfg0.N) : t.val < 4 := lt_of_lt_of_eq t.isLt N_0
theorem lt4_1 (t : Fin cfg1.N) : t.val < 4 := lt_of_lt_of_eq t.isLt N_1

/-! ## Blocks read at an entry -/

theorem rows0_apply (t : Fin cfg0.N) (r : Fin 4096) (d : Fin 64) :
    rows0 V c t (ix2 r d) = V c main_v1 (ix2 (rowAt t.val (lt4_0 t) r) d) := by
  have hi : win0_0.index t 0 = t.val ∧ win0_0.index t 1 = 0 := by
    rcases fin_N0 t with rfl | rfl | rfl | rfl <;> decide
  show iblk0 V c 0 t (ix2 r d) = _
  unfold iblk0
  rw [View.read_apply]
  show V c main_v1 _ = V c main_v1 _
  congr 1
  funext a
  apply Fin.ext
  match a with
  | ⟨0, _⟩ => show win0_0.index t 0 * 4096 + 1 * r.val = 4096 * t.val + r.val; rw [hi.1]; omega
  | ⟨1, _⟩ => show win0_0.index t 1 * 64 + 1 * d.val = d.val; rw [hi.2]; omega

theorem xRows_apply (t : Fin cfg1.N) (r : Fin 4096) (d : Fin 64) :
    xRows V c t (ix2 r d) = V c main_v1 (ix2 (rowAt t.val (lt4_1 t) r) d) := by
  have hi : win1_0.index t 0 = t.val ∧ win1_0.index t 1 = 0 := by
    rcases fin_N1 t with rfl | rfl | rfl | rfl <;> decide
  show iblk1 V c 0 t (ix2 r d) = _
  unfold iblk1
  rw [View.read_apply]
  show V c main_v1 _ = V c main_v1 _
  congr 1
  funext a
  apply Fin.ext
  match a with
  | ⟨0, _⟩ => show win1_0.index t 0 * 4096 + 1 * r.val = 4096 * t.val + r.val; rw [hi.1]; omega
  | ⟨1, _⟩ => show win1_0.index t 1 * 64 + 1 * d.val = d.val; rw [hi.2]; omega

theorem muRows_apply (t : Fin cfg1.N) (r : Fin 4096) (d : Fin 64) :
    muRows V c t (ix2 r d) = V c main_arg1 (ix2 (rowAt t.val (lt4_1 t) r) d) := by
  have hi : win1_1.index t 0 = t.val ∧ win1_1.index t 1 = 0 := by
    rcases fin_N1 t with rfl | rfl | rfl | rfl <;> decide
  show iblk1 V c 1 t (ix2 r d) = _
  unfold iblk1
  rw [View.read_apply]
  show V c main_arg1 _ = V c main_arg1 _
  congr 1
  funext a
  apply Fin.ext
  match a with
  | ⟨0, _⟩ => show win1_1.index t 0 * 4096 + 1 * r.val = 4096 * t.val + r.val; rw [hi.1]; omega
  | ⟨1, _⟩ => show win1_1.index t 1 * 64 + 1 * d.val = d.val; rw [hi.2]; omega

theorem lvRows_apply (t : Fin cfg1.N) (r : Fin 4096) (d : Fin 64) :
    lvRows V c t (ix2 r d) = V c main_arg2 (ix2 (rowAt t.val (lt4_1 t) r) d) := by
  have hi : win1_2.index t 0 = t.val ∧ win1_2.index t 1 = 0 := by
    rcases fin_N1 t with rfl | rfl | rfl | rfl <;> decide
  show iblk1 V c 2 t (ix2 r d) = _
  unfold iblk1
  rw [View.read_apply]
  show V c main_arg2 _ = V c main_arg2 _
  congr 1
  funext a
  apply Fin.ext
  match a with
  | ⟨0, _⟩ => show win1_2.index t 0 * 4096 + 1 * r.val = 4096 * t.val + r.val; rw [hi.1]; omega
  | ⟨1, _⟩ => show win1_2.index t 1 * 64 + 1 * d.val = d.val; rw [hi.2]; omega

theorem meanRow_apply (t : Fin cfg1.N) (u : Fin 1) (d : Fin 64) : meanRow V c t (ix2 u d) = V c main_v4 (ix2 u d) := by
  have hi : win1_3.index t 0 = 0 ∧ win1_3.index t 1 = 0 := by
    rcases fin_N1 t with rfl | rfl | rfl | rfl <;> decide
  show iblk1 V c 3 t (ix2 u d) = _
  unfold iblk1
  rw [View.read_apply]
  show V c main_v4 _ = V c main_v4 _
  congr 1
  funext a
  apply Fin.ext
  match a with
  | ⟨0, _⟩ => show win1_3.index t 0 * 1 + 1 * u.val = u.val; rw [hi.1]; omega
  | ⟨1, _⟩ => show win1_3.index t 1 * 64 + 1 * d.val = d.val; rw [hi.2]; omega

theorem meanSqRow_apply (t : Fin cfg1.N) (u : Fin 1) (d : Fin 64) : meanSqRow V c t (ix2 u d) = V c main_v6 (ix2 u d) := by
  have hi : win1_4.index t 0 = 0 ∧ win1_4.index t 1 = 0 := by
    rcases fin_N1 t with rfl | rfl | rfl | rfl <;> decide
  show iblk1 V c 4 t (ix2 u d) = _
  unfold iblk1
  rw [View.read_apply]
  show V c main_v6 _ = V c main_v6 _
  congr 1
  funext a
  apply Fin.ext
  match a with
  | ⟨0, _⟩ => show win1_4.index t 0 * 1 + 1 * u.val = u.val; rw [hi.1]; omega
  | ⟨1, _⟩ => show win1_4.index t 1 * 64 + 1 * d.val = d.val; rw [hi.2]; omega

/-! ## The accumulators' iterates, entry by entry -/

/-- The first accumulator after the last point, at column d: the four-tile chain of the row sums of the input array. -/
theorem colSum_apply (u : Fin 1) (d : Fin 64) :
    colSum V c (ix2 u d) = chain4 fun t => ∑ r : Fin 4096, mat (V c main_v1) (rowOf t r) d := by
  show (sums V c 3 three_lt0).1 (ix2 u d) = _
  simp only [sums]
  rw [colsum_apply, colsum_apply, colsum_apply, colsum_apply, zero_row1]
  simp only [rows0_apply]
  rfl

/-- The second accumulator: the chain of the row sums of the squares. -/
theorem colSumSq_apply (u : Fin 1) (d : Fin 64) :
    colSumSq V c (ix2 u d)
      = chain4 fun t => ∑ r : Fin 4096, mat (V c main_v1) (rowOf t r) d * mat (V c main_v1) (rowOf t r) d := by
  show (sums V c 3 three_lt0).2 (ix2 u d) = _
  simp only [sums]
  rw [colsumsq_apply, colsumsq_apply, colsumsq_apply, colsumsq_apply, zero_row2]
  simp only [rows0_apply]
  rfl

/-- One row's loss with the two rows of column means given. -/
def rowLossOf (X M L : Mat) (mx mx2 : Fin 64 → EReal) (i : Fin 16384) : EReal :=
  negHalf * pos X M L i
    - negHalf * (((∑ d : Fin 64, invVar L i d * mx2 d) - two * (∑ d : Fin 64, (M i d * invVar L i d) * mx d)) + cterm M L i)

/-- The loss accumulator after the last point: the four-tile chain of the row losses. -/
theorem lossSum_apply (u u' : Fin 1) :
    lossSum V c (ix2 u u')
      = chain4 fun t => ∑ r : Fin 4096, rowLossOf (mat (V c main_v1)) (mat (V c main_arg1)) (mat (V c main_arg2))
          (fun d => V c main_v4 (ix2 (0 : Fin 1) d)) (fun d => V c main_v6 (ix2 (0 : Fin 1) d)) (rowOf t r) := by
  show losses V c 3 three_lt1 (ix2 u u') = _
  simp only [losses, tileStep]
  rw [tile_apply, tile_apply, tile_apply, tile_apply, zero_entry]
  simp only [pos_apply, bracket_apply, xRows_apply, muRows_apply, lvRows_apply, meanRow_apply, meanSqRow_apply]
  rfl

end Regions

/-! ## The result -/

variable (m : (ℓ : Loc nD τ sig) → Buf (Elt Ideal) ℓ) (ρ : Dev nD → PrngReg) (c : Dev nD)

/-- The row of column means the loss region reads is the spec's column mean of the flattened input. -/
theorem mean_eq (d : Fin 64) :
    V3 m ρ c main_v4 (ix2 (0 : Fin 1) d) = meanX (mat (flat (m ((c : Thread nD τ).loc main_arg0)))) d := by
  rw [V3_mean]
  show Ideal.div (colSum (V1 m ρ) c (ix2 (0 : Fin 1) d)) cnt = _
  rw [colSum_apply, V1_flat]
  rfl

theorem meanSq_eq (d : Fin 64) :
    V3 m ρ c main_v6 (ix2 (0 : Fin 1) d) = meanX2 (mat (flat (m ((c : Thread nD τ).loc main_arg0)))) d := by
  rw [V3_meanSq]
  show Ideal.div (colSumSq (V1 m ρ) c (ix2 (0 : Fin 1) d)) cnt = _
  rw [colSumSq_apply, V1_flat]
  rfl

/-- The kernel's result buffer after the run is the closed formula of the launch contents. -/
theorem kernel_value : W5 m ρ c (Proc.devRef .tc main_v9)
    = fun _ => kerLoss (mat (flat (m ((c : Thread nD τ).loc main_arg0)))) (mat (m ((c : Thread nD τ).loc main_arg1)))
        (mat (m ((c : Thread nD τ).loc main_arg2))) := by
  rw [result_eq]
  funext j
  have hj : shapeCast S_ (lossSum (V3 m ρ) c) shapeCasts_S1x1_S_ j = lossSum (V3 m ρ) c (ix2 (0 : Fin 1) (0 : Fin 1)) :=
    shapeCast_apply (s := S1x1) (t := S_) (lossSum (V3 m ρ) c) shapeCasts_S1x1_S_ j (ix2 (0 : Fin 1) (0 : Fin 1)) (by
      rw [Shape.rowMajor_val_two]
      exact (Shape.rowMajorPi_zero _ j).symm)
  have hrow : ∀ i : Fin 16384,
      rowLossOf (mat (V3 m ρ c main_v1)) (mat (V3 m ρ c main_arg1)) (mat (V3 m ρ c main_arg2))
          (fun d => V3 m ρ c main_v4 (ix2 (0 : Fin 1) d)) (fun d => V3 m ρ c main_v6 (ix2 (0 : Fin 1) d)) i
        = rowLoss (mat (flat (m ((c : Thread nD τ).loc main_arg0)))) (mat (m ((c : Thread nD τ).loc main_arg1)))
            (mat (m ((c : Thread nD τ).loc main_arg2))) i := by
    intro i
    rw [V3_flat, V3_arg1, V3_arg2, funext (mean_eq m ρ c), funext (meanSq_eq m ρ c)]
    rfl
  show Ideal.div (shapeCast S_ (lossSum (V3 m ρ) c) shapeCasts_S1x1_S_ j) cnt = _
  rw [hj, lossSum_apply]
  simp only [hrow]
  rfl

end Cert.KernelIdeal.Val

end
-- ==== Proof.RefSide.lean ====
import proofs.«172152_j10651518894749_1_alg».proof.Proof.Gen.ReferenceIdeal.Read
import proofs.«172152_j10651518894749_1_alg».proof.Proof.Spec

/-!
  The reference program, stage by stage, is the closed formula refLoss of the specification.

  Throughout, X is the flattened input read as a 16384 × 64 matrix, M the means, L the log-variances.
  Each lemma below reads one stage of the reference at an index built from its coordinates and states the value
  in the specification's words; the last theorem puts them together.
-/

noncomputable section

namespace Cert.ReferenceIdeal.RefValue

open Cert.ReferenceIdeal Cert.ReferenceIdeal.Gen Cert.ReferenceIdeal.Read Idealize.ShloMosaic
open Cert.Loss

/-! ## Indices -/

/-- A rank-1 index set is its one coordinate range … -/
def idxEquiv1 {n : Nat} : (⟨1, ![n]⟩ : Shape).Idx ≃ Fin n where
  toFun i := i 0
  invFun a := ValueIdx.ix1 a
  left_inv i := (ValueIdx.eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ValueIdx.ix1 a) := by
  rw [← Equiv.sum_comp (idxEquiv1 (n := n)).symm f]
  rfl

/-- Row i, column k of a 16384 × 64 array, as the row sums address it. -/
theorem idx7_eq (i : Fin 16384) (k : Fin 64) : idx_main_v7 (ValueIdx.ix1 i) k = ValueIdx.ix2 i k :=
  funext fun a => Fin.ext (by match a with | ⟨0, _⟩ => rfl | ⟨1, _⟩ => rfl)

theorem idx14_eq (i : Fin 16384) (k : Fin 64) : idx_main_v14 (ValueIdx.ix1 i) k = ValueIdx.ix2 i k :=
  funext fun a => Fin.ext (by match a with | ⟨0, _⟩ => rfl | ⟨1, _⟩ => rfl)

/-- The left operand of either product is read on row i … -/
theorem lidx15_eq (i j : Fin 16384) (k : Fin 64) : lidx_main_v15 (ValueIdx.ix2 i j) k = ValueIdx.ix2 i k :=
  funext fun a => Fin.ext (by match a with | ⟨0, _⟩ => rfl | ⟨1, _⟩ => rfl)

/-- … and the right operand on row j. -/
theorem ridx15_eq (i j : Fin 16384) (k : Fin 64) : ridx_main_v15 (ValueIdx.ix2 i j) k = ValueIdx.ix2 j k :=
  funext fun a => Fin.ext (by match a with | ⟨0, _⟩ => rfl | ⟨1, _⟩ => rfl)

theorem lidx16_eq (i j : Fin 16384) (k : Fin 64) : lidx_main_v16 (ValueIdx.ix2 i j) k = ValueIdx.ix2 i k :=
  funext fun a => Fin.ext (by match a with | ⟨0, _⟩ => rfl | ⟨1, _⟩ => rfl)

theorem ridx16_eq (i j : Fin 16384) (k : Fin 64) : ridx_main_v16 (ValueIdx.ix2 i j) k = ValueIdx.ix2 j k :=
  funext fun a => Fin.ext (by match a with | ⟨0, _⟩ => rfl | ⟨1, _⟩ => rfl)

/-- The column vector c, broadcast along j, is read at row i. -/
theorem idx21_eq (i j : Fin 16384) : idx_main_v20 (idx_main_v21 (ValueIdx.ix2 i j)) = ValueIdx.ix1 i :=
  funext fun a => Fin.ext (by match a with | ⟨0, _⟩ => rfl)

/-- Entry (i, j) of the pairwise matrix, as the sum over j addresses it. -/
theorem idx23_eq (i j : Fin 16384) : idx_main_v23 (ValueIdx.ix1 i) j = ValueIdx.ix2 i j :=
  funext fun a => Fin.ext (by match a with | ⟨0, _⟩ => rfl | ⟨1, _⟩ => rfl)

/-! ## The flattened input is finite where the input is -/

/-- the flattened input: the 16×64×32×32 array transposed to 16×32×32×64 and reshaped to 16384×64 (the generated stage val_main_v1) -/
theorem flat_real (x0 : (⟨S16x64x32x32, .f32⟩ : BufTy).Contents (Elt Ideal)) (h : ∀ i, ∃ r : ℝ, x0 i = (r : EReal)) :
    ∀ i, ∃ r : ℝ, val_main_v1 (F := Ideal) x0 i = (r : EReal) := by
  intro i
  rw [val_main_v1_apply, val_main_v0_apply]
  exact h _

/-! ## The stages at an index -/

section Stages

variable (x0 : (⟨S16x64x32x32, .f32⟩ : BufTy).Contents (Elt Ideal))
variable (x1 x2 : (⟨S16384x64, .f32⟩ : BufTy).Contents (Elt Ideal))

/-- exp(-L). -/
theorem v3_at (i : Fin 16384) (d : Fin 64) :
    val_main_v3 (F := Ideal) x2 (ValueIdx.ix2 i d) = invVar (mat x2) i d := rfl

/-- (X - M)² · e. -/
theorem v6_at (i : Fin 16384) (d : Fin 64) :
    val_main_v6 (F := Ideal) x0 x1 x2 (ValueIdx.ix2 i d)
      = ((mat (val_main_v1 (F := Ideal) x0) i d - mat x1 i d) * (mat (val_main_v1 (F := Ideal) x0) i d - mat x1 i d))
          * invVar (mat x2) i d := rfl

/-- 0 + Σ_d (X - M)² · e. -/
theorem v7_at (i : Fin 16384) :
    val_main_v7 (F := Ideal) x0 x1 x2 (ValueIdx.ix1 i)
      = 0 + pos (mat (val_main_v1 (F := Ideal) x0)) (mat x1) (mat x2) i := by
  rw [val_main_v7_apply, val_main_cst_apply, Ideal.ofBits_def, Ideal.ofBits_zero_f32]
  refine congrArg (0 + ·) (Finset.sum_congr rfl fun k _ => ?_)
  rw [idx7_eq, v6_at]

/-- M² · e. -/
theorem v13_at (i : Fin 16384) (d : Fin 64) :
    val_main_v13 (F := Ideal) x1 x2 (ValueIdx.ix2 i d) = (mat x1 i d * mat x1 i d) * invVar (mat x2) i d := rfl

/-- 0 + Σ_d M² · e. -/
theorem v14_at (i : Fin 16384) :
    val_main_v14 (F := Ideal) x1 x2 (ValueIdx.ix1 i) = 0 + cterm (mat x1) (mat x2) i := by
  rw [val_main_v14_apply, val_main_cst_1_apply, Ideal.ofBits_def, Ideal.ofBits_zero_f32]
  refine congrArg (0 + ·) (Finset.sum_congr rfl fun k _ => ?_)
  rw [idx14_eq, v13_at]

/-- Σ_d e i d · (X j d)². -/
theorem v15_at (i j : Fin 16384) :
    val_main_v15 (F := Ideal) x0 x2 (ValueIdx.ix2 i j)
      = ∑ d : Fin 64, invVar (mat x2) i d * (mat (val_main_v1 (F := Ideal) x0) j d * mat (val_main_v1 (F := Ideal) x0) j d) := by
  rw [val_main_v15_apply]
  refine Finset.sum_congr rfl fun k _ => ?_
  rw [lidx15_eq, ridx15_eq, v3_at]
  rfl

/-- Σ_d (M i d · e i d) · X j d. -/
theorem v16_at (i j : Fin 16384) :
    val_main_v16 (F := Ideal) x0 x1 x2 (ValueIdx.ix2 i j)
      = ∑ d : Fin 64, (mat x1 i d * invVar (mat x2) i d) * mat (val_main_v1 (F := Ideal) x0) j d := by
  rw [val_main_v16_apply]
  refine Finset.sum_congr rfl fun k _ => ?_
  rw [lidx16_eq, ridx16_eq]
  rfl

/-- The pairwise entry D i j. -/
theorem v22_at (i j : Fin 16384) :
    val_main_v22 (F := Ideal) x0 x1 x2 (ValueIdx.ix2 i j)
      = pairD (mat (val_main_v1 (F := Ideal) x0)) (mat x1) (mat x2) i j := by
  rw [val_main_v22_apply, val_main_v19_apply, val_main_v18_apply, val_main_v17_apply, val_main_cst_2_apply,
    val_main_v21_apply, val_main_v20_apply, idx21_eq, v14_at, v15_at, v16_at]
  rfl

/-- 0 + Σ_j D i j. -/
theorem v23_at (i : Fin 16384) :
    val_main_v23 (F := Ideal) x0 x1 x2 (ValueIdx.ix1 i)
      = 0 + ∑ j : Fin 16384, pairD (mat (val_main_v1 (F := Ideal) x0)) (mat x1) (mat x2) i j := by
  rw [val_main_v23_apply, val_main_cst_3_apply, Ideal.ofBits_def, Ideal.ofBits_zero_f32]
  refine congrArg (0 + ·) (Finset.sum_congr rfl fun k _ => ?_)
  rw [idx23_eq, v22_at]

/-- Row i's term: -½ · (0 + pos i) - (-½) · mean_j D i j. -/
theorem v28_at (i : Fin 16384) :
    val_main_v28 (F := Ideal) x0 x1 x2 (ValueIdx.ix1 i)
      = negHalf * (0 + pos (mat (val_main_v1 (F := Ideal) x0)) (mat x1) (mat x2) i)
          - negHalf * Ideal.div (0 + ∑ j : Fin 16384, pairD (mat (val_main_v1 (F := Ideal) x0)) (mat x1) (mat x2) i j) cnt := by
  rw [val_main_v28_apply, val_main_v9_apply, val_main_v27_apply, val_main_v25_apply, val_main_v8_apply,
    val_main_v26_apply, val_main_v24_apply, val_main_cst_0_apply, val_main_cst_5_apply, val_main_cst_4_apply,
    v7_at, v23_at]
  rfl

end Stages

/-! ## The reference's result -/

theorem ref_value (x0 : (⟨S16x64x32x32, .f32⟩ : BufTy).Contents (Elt Ideal)) (x1 x2 : (⟨S16384x64, .f32⟩ : BufTy).Contents (Elt Ideal)) :
    val_main_v30 (F := Ideal) x0 x1 x2 = fun _ => Cert.Loss.refLoss (Cert.Loss.mat (val_main_v1 (F := Ideal) x0)) (Cert.Loss.mat x1) (Cert.Loss.mat x2) := by
  funext i
  rw [val_main_v30_apply, val_main_v29_apply, val_main_cst_6_apply, val_main_cst_7_apply, Ideal.ofBits_def,
    Ideal.ofBits_zero_f32, sum_idx1]
  simp only [v28_at]
  rfl

end Cert.ReferenceIdeal.RefValue

end
-- ==== Proof.Algebra.lean ====
/-
  On real inputs the kernel's loss and the reference's loss are the same extended real.

  Every entry of X, M, L is the image of a real number, so every intermediate quantity of both formulas is the
  image of a real number too: the inverse variance exp(-L) is a real exponential, the three literals are the reals
  -1/2, 2 and 16384, a quotient by 16384 is a product with 1/16384, and a finite sum of images is the image of the
  sum.  Both losses are therefore images of real expressions, and the equality is proved in ℝ, where it says: the
  four tiles of 4096 rows together are the 16384 rows, and the average over j of
      D i j = Σ_d e i d · (x j d)² - 2 · Σ_d (μ i d · e i d) · x j d + c i
  is  Σ_d e i d · mean_j (x j d)² - 2 · Σ_d (μ i d · e i d) · mean_j (x j d) + c i  (exchange the two sums, pull the
  factors that do not depend on j out, and average the constant c i over 16384 terms).
-/
import proofs.«172152_j10651518894749_1_alg».proof.Proof.Spec
import Mathlib.Data.EReal.Operations
import Mathlib.Data.EReal.Inv
import Mathlib.Algebra.BigOperators.Fin
import Mathlib.Algebra.BigOperators.Ring.Finset
import Mathlib.Algebra.BigOperators.Group.Finset.Basic
import Mathlib.Data.Fintype.BigOperators
import Mathlib.Logic.Equiv.Fin.Basic
import Mathlib.Tactic.Ring
import Mathlib.Tactic.NormNum
import Mathlib.Tactic.FieldSimp
import Mathlib.Tactic.Choose

noncomputable section

namespace Cert.Loss

open Idealize.ShloMosaic

/-! ## Images of reals -/

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The literal -0.5 is the real -1/2. -/
theorem negHalf_eq : negHalf = ((-(1 / 2) : ℝ) : EReal) := by
  simp [negHalf, Ideal.ofBits, Ideal.ieee, -EReal.coe_mul]; norm_num

/-- The literal 2.0 is the real 2. -/
theorem two_eq : two = ((2 : ℝ) : EReal) := by
  simp [two, Ideal.ofBits, Ideal.ieee, -EReal.coe_mul]; norm_num

/-- The literal 16384.0 is the real 16384. -/
theorem cnt_eq : cnt = ((16384 : ℝ) : EReal) := by
  simp [cnt, Ideal.ofBits, Ideal.ieee, -EReal.coe_mul]; norm_num

/-- Dividing by the row count is multiplying by the real 1/16384. -/
theorem div_cnt (a : EReal) : Ideal.div a cnt = a * (((1 / 16384 : ℝ)) : EReal) := by
  rw [cnt_eq, Ideal.div_coe (by norm_num)]

/-- A 16384 × 64 matrix of reals. -/
abbrev RMat : Type := Fin 16384 → Fin 64 → ℝ

/-- The matrix of images of a real matrix. -/
def up (x : RMat) : Mat := fun i d => (x i d : EReal)

/-- A matrix all of whose entries are images of reals is the image of a real matrix. -/
theorem exists_up (X : Mat) (hX : ∀ i d, ∃ r : ℝ, X i d = (r : EReal)) : ∃ x : RMat, X = up x := by
  choose x hx using hX
  exact ⟨x, funext fun i => funext fun d => hx i d⟩

/-! ## The real twins of the specification -/

/-- exp(-l), in ℝ. -/
def rInvVar (l : RMat) (i : Fin 16384) (d : Fin 64) : ℝ := Real.exp (-(l i d))

/-- Σ_d (x - μ)² · e on row i, in ℝ. -/
def rPos (x μ l : RMat) (i : Fin 16384) : ℝ := ∑ d : Fin 64, ((x i d - μ i d) * (x i d - μ i d)) * rInvVar l i d

/-- Σ_d μ² · e on row i, in ℝ. -/
def rCterm (μ l : RMat) (i : Fin 16384) : ℝ := ∑ d : Fin 64, (μ i d * μ i d) * rInvVar l i d

/-- The pairwise entry D i j, in ℝ. -/
def rPairD (x μ l : RMat) (i j : Fin 16384) : ℝ :=
  ((∑ d : Fin 64, rInvVar l i d * (x j d * x j d)) - 2 * (∑ d : Fin 64, (μ i d * rInvVar l i d) * x j d)) + rCterm μ l i

/-- The column mean of x over all 16384 rows, in ℝ. -/
def rMeanX (x : RMat) (d : Fin 64) : ℝ := (∑ j : Fin 16384, x j d) * (1 / 16384)

/-- The column mean of x² over all 16384 rows, in ℝ. -/
def rMeanX2 (x : RMat) (d : Fin 64) : ℝ := (∑ j : Fin 16384, x j d * x j d) * (1 / 16384)

/-- One row's contribution in the kernel, in ℝ. -/
def rRowLoss (x μ l : RMat) (i : Fin 16384) : ℝ :=
  -(1 / 2) * rPos x μ l i
    - -(1 / 2) * (((∑ d : Fin 64, rInvVar l i d * rMeanX2 x d) - 2 * (∑ d : Fin 64, (μ i d * rInvVar l i d) * rMeanX x d))
        + rCterm μ l i)

/-- One row's contribution in the reference, in ℝ. -/
def rRefRow (x μ l : RMat) (i : Fin 16384) : ℝ :=
  -(1 / 2) * rPos x μ l i - -(1 / 2) * ((∑ j : Fin 16384, rPairD x μ l i j) * (1 / 16384))

/-! ## The four tiles are all the rows -/

/-- Summing over the four tiles and over the 4096 rows of each is summing over the 16384 rows:
    (t, r) ↦ 4096 · t + r is a bijection of Fin 4 × Fin 4096 with Fin 16384. -/
theorem sum_tiles (g : Fin 16384 → ℝ) : ∑ t : Fin 4, ∑ r : Fin 4096, g (rowOf t r) = ∑ j : Fin 16384, g j := by
  have h : ∀ p : Fin 4 × Fin 4096, rowOf p.1 p.2 = (finProdFinEquiv p : Fin (4 * 4096)) := by
    intro p
    apply Fin.ext
    show 4096 * p.1.val + p.2.val = p.2.val + 4096 * p.1.val
    omega
  rw [← Fintype.sum_prod_type' (f := fun t r => g (rowOf t r))]
  simp only [h]
  exact Equiv.sum_comp (finProdFinEquiv : Fin 4 × Fin 4096 ≃ Fin (4 * 4096)) g

/-- The tile-by-tile accumulator of real tile sums is the sum over all rows. -/
theorem chain4_tiles (g : Fin 16384 → ℝ) :
    chain4 (fun t => ((∑ r : Fin 4096, g (rowOf t r) : ℝ) : EReal)) = ((∑ j : Fin 16384, g j : ℝ) : EReal) := by
  rw [← sum_tiles g, Fin.sum_univ_four]
  simp only [chain4, zero_add, EReal.coe_add]

/-! ## Each definition of the specification, on real inputs, is the image of its twin -/

theorem invVar_up (l : RMat) (i : Fin 16384) (d : Fin 64) : invVar (up l) i d = ((rInvVar l i d : ℝ) : EReal) := by
  simp only [invVar, up, rInvVar, ← EReal.coe_neg, Ideal.exp_coe]

theorem pos_up (x μ l : RMat) (i : Fin 16384) : pos (up x) (up μ) (up l) i = ((rPos x μ l i : ℝ) : EReal) := by
  simp only [pos, rPos, invVar_up, coe_sum, EReal.coe_mul, EReal.coe_sub, up]

theorem cterm_up (μ l : RMat) (i : Fin 16384) : cterm (up μ) (up l) i = ((rCterm μ l i : ℝ) : EReal) := by
  simp only [cterm, rCterm, invVar_up, coe_sum, EReal.coe_mul, up]

theorem pairD_up (x μ l : RMat) (i j : Fin 16384) :
    pairD (up x) (up μ) (up l) i j = ((rPairD x μ l i j : ℝ) : EReal) := by
  simp only [pairD, rPairD, invVar_up, cterm_up, two_eq, coe_sum, EReal.coe_mul, EReal.coe_sub, EReal.coe_add, zero_add, up]

theorem meanX_up (x : RMat) (d : Fin 64) : meanX (up x) d = ((rMeanX x d : ℝ) : EReal) := by
  have h : ∀ t : Fin 4, (∑ r : Fin 4096, up x (rowOf t r) d) = ((∑ r : Fin 4096, x (rowOf t r) d : ℝ) : EReal) := by
    intro t; simp only [coe_sum, up]
  simp only [meanX, h]
  rw [chain4_tiles (fun j => x j d), div_cnt, rMeanX, EReal.coe_mul]

theorem meanX2_up (x : RMat) (d : Fin 64) : meanX2 (up x) d = ((rMeanX2 x d : ℝ) : EReal) := by
  have h : ∀ t : Fin 4, (∑ r : Fin 4096, up x (rowOf t r) d * up x (rowOf t r) d)
      = ((∑ r : Fin 4096, x (rowOf t r) d * x (rowOf t r) d : ℝ) : EReal) := by
    intro t; simp only [coe_sum, EReal.coe_mul, up]
  simp only [meanX2, h]
  rw [chain4_tiles (fun j => x j d * x j d), div_cnt, rMeanX2, EReal.coe_mul]

theorem rowLoss_up (x μ l : RMat) (i : Fin 16384) :
    rowLoss (up x) (up μ) (up l) i = ((rRowLoss x μ l i : ℝ) : EReal) := by
  simp only [rowLoss, rRowLoss, pos_up, cterm_up, invVar_up, meanX_up, meanX2_up, negHalf_eq, two_eq, coe_sum,
    EReal.coe_mul, EReal.coe_sub, EReal.coe_add, up]

theorem kerLoss_up (x μ l : RMat) :
    kerLoss (up x) (up μ) (up l) = (((∑ i : Fin 16384, rRowLoss x μ l i) * (1 / 16384) : ℝ) : EReal) := by
  have h : ∀ t : Fin 4, (∑ r : Fin 4096, rowLoss (up x) (up μ) (up l) (rowOf t r))
      = ((∑ r : Fin 4096, rRowLoss x μ l (rowOf t r) : ℝ) : EReal) := by
    intro t; simp only [coe_sum, rowLoss_up]
  simp only [kerLoss, h]
  rw [chain4_tiles (fun j => rRowLoss x μ l j), div_cnt, EReal.coe_mul]

theorem refLoss_up (x μ l : RMat) :
    refLoss (up x) (up μ) (up l) = (((∑ i : Fin 16384, rRefRow x μ l i) * (1 / 16384) : ℝ) : EReal) := by
  have h : ∀ i : Fin 16384,
      negHalf * (0 + pos (up x) (up μ) (up l) i)
          - negHalf * Ideal.div (0 + ∑ j : Fin 16384, pairD (up x) (up μ) (up l) i j) cnt
        = ((rRefRow x μ l i : ℝ) : EReal) := by
    intro i
    simp only [rRefRow, pos_up, pairD_up, div_cnt, negHalf_eq, zero_add, coe_sum, EReal.coe_mul, EReal.coe_sub]
  simp only [refLoss, h]
  rw [zero_add, div_cnt, ← coe_sum, EReal.coe_mul]

/-! ## The identity in ℝ -/

/-- The average over j of D i j, with the sums over j and d exchanged. -/
theorem mean_pairD (x μ l : RMat) (i : Fin 16384) :
    (∑ j : Fin 16384, rPairD x μ l i j) * (1 / 16384)
      = ((∑ d : Fin 64, rInvVar l i d * rMeanX2 x d) - 2 * (∑ d : Fin 64, (μ i d * rInvVar l i d) * rMeanX x d))
        + rCterm μ l i := by
  have hA : ∑ j : Fin 16384, ∑ d : Fin 64, rInvVar l i d * (x j d * x j d)
      = ∑ d : Fin 64, rInvVar l i d * ∑ j : Fin 16384, x j d * x j d := by
    rw [Finset.sum_comm]
    exact Finset.sum_congr rfl fun d _ => (Finset.mul_sum _ _ _).symm
  have hB : ∑ j : Fin 16384, ∑ d : Fin 64, (μ i d * rInvVar l i d) * x j d
      = ∑ d : Fin 64, (μ i d * rInvVar l i d) * ∑ j : Fin 16384, x j d := by
    rw [Finset.sum_comm]
    exact Finset.sum_congr rfl fun d _ => (Finset.mul_sum _ _ _).symm
  have hC : ∑ _j : Fin 16384, rCterm μ l i = 16384 * rCterm μ l i := by
    rw [Finset.sum_const, Finset.card_univ, Fintype.card_fin, nsmul_eq_mul]; norm_num
  have hM2 : ∑ d : Fin 64, rInvVar l i d * rMeanX2 x d
      = (∑ d : Fin 64, rInvVar l i d * ∑ j : Fin 16384, x j d * x j d) * (1 / 16384) := by
    rw [Finset.sum_mul]
    exact Finset.sum_congr rfl fun d _ => by rw [rMeanX2]; ring
  have hM1 : ∑ d : Fin 64, (μ i d * rInvVar l i d) * rMeanX x d
      = (∑ d : Fin 64, (μ i d * rInvVar l i d) * ∑ j : Fin 16384, x j d) * (1 / 16384) := by
    rw [Finset.sum_mul]
    exact Finset.sum_congr rfl fun d _ => by rw [rMeanX]; ring
  simp only [rPairD]
  rw [Finset.sum_add_distrib, Finset.sum_sub_distrib, ← Finset.mul_sum, hA, hB, hC, hM2, hM1]
  ring

/-- Row by row the kernel and the reference contribute the same real. -/
theorem rRowLoss_eq (x μ l : RMat) (i : Fin 16384) : rRowLoss x μ l i = rRefRow x μ l i := by
  rw [rRowLoss, rRefRow, mean_pairD]

/-! ## The equality -/

theorem kerLoss_eq_refLoss (X M L : Mat)
    (hX : ∀ i d, ∃ r : ℝ, X i d = (r : EReal)) (hM : ∀ i d, ∃ r : ℝ, M i d = (r : EReal)) (hL : ∀ i d, ∃ r : ℝ, L i d = (r : EReal)) :
    kerLoss X M L = refLoss X M L := by
  obtain ⟨x, rfl⟩ := exists_up X hX
  obtain ⟨μ, rfl⟩ := exists_up M hM
  obtain ⟨l, rfl⟩ := exists_up L hL
  rw [kerLoss_up, refLoss_up]
  simp only [rRowLoss_eq]

end Cert.Loss

end
-- ==== Proof.Finite.lean ====
import proofs.«172152_j10651518894749_1_alg».proof.Pre_finite_inputs
import proofs.«172152_j10651518894749_1_alg».proof.Proof.Gen.Pre_finite_inputs
import Idealize.ShloMosaic.Lib.ReduceAll
import Idealize.ShloMosaic.Lib.IdealHost
import Idealize.ShloMosaic.PureOps.Ideal
import Idealize.ShloMosaic.PureOps.Ideal.Laws

noncomputable section

namespace Cert.Loss

open Idealize.ShloMosaic

/-- An extended real whose absolute value `max x (-x)` lies strictly below `⊤` is a real number:
    at `⊥` and at `⊤` the absolute value is `⊤`. -/
theorem exists_real_of_abs_lt_top (x : EReal) (h : max x (-x) < ⊤) : ∃ r : ℝ, x = (r : EReal) := by
  induction x using EReal.rec with
  | bot => simp at h
  | coe r => exact ⟨r, rfl⟩
  | top => simp at h

/-- The word `0x7F800000` denotes `+∞`. -/
theorem ofBits_inf : Ideal.ofBits .f32 0x7F800000#32 = (⊤ : EReal) := by
  simp [Ideal.ofBits, Ideal.ieee]

/-- A truth value whose one-bit word is `1` is `true`. -/
theorem eq_true_of_ofBool_eq_one {b : Bool} (h : BitVec.ofBool b = 1#1) : b = true := by
  revert h; cases b <;> decide

/-- The rank-0 shape has a single index. -/
instance : Subsingleton Cert.Pre_finite_inputs.S_.Idx := ⟨fun a b => funext fun d => d.elim0⟩

/-- One array: if the conjunction over every index of `|a i| < +∞` is true, every entry of `a` is a real. -/
theorem real_of_all_abs_lt_inf {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
          (cmpf .olt (Host.absf a)
            (broadcastInDim s ![] hb (constant Cert.Pre_finite_inputs.S_ .f32 0x7F800000#32)))
          (constantI Cert.Pre_finite_inputs.S_ 1 1#1) hr hu ValueIdx.ix0 = 1#1) (i : s.Idx) :
    ∃ r : ℝ, a i = (r : EReal) := by
  have hi := Host.reduce_andi_all _ _ hr hu ValueIdx.ix0 e i
  apply exists_real_of_abs_lt_top
  have hi' : Ideal.cmp .olt (max (a i) (-(a i))) (Ideal.ofBits .f32 0x7F800000#32) = 1#1 := hi
  rw [ofBits_inf] at hi'
  have hlt : max (a i) (-(a i)) < (⊤ : EReal) := of_decide_eq_true (eq_true_of_ofBool_eq_one hi')
  exact hlt

theorem real_of_pre (a0 : FVec Ideal Cert.Pre_finite_inputs.S16x64x32x32 .f32) (a1 a2 : FVec Ideal Cert.Pre_finite_inputs.S16384x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_all_abs_lt_inf _ _ _ a0 h0' i, fun i => real_of_all_abs_lt_inf _ _ _ a1 h1 i,
    fun i => real_of_all_abs_lt_inf _ _ _ a2 h2 i⟩

end Cert.Loss

end
-- ==== Proof.lean ====
/-
  The certificate: the kernel and the reference compute the same mean loss over the extended reals, on finite inputs.

  Both programs flatten x to a 16384 × 64 matrix X and, with e = exp(-logvar), average over the rows i the quantity
  (-½ · Σ_d (X i d - mu i d)² · e i d) - (-½ · n i).  The reference takes n i as the mean over j of the pairwise entry
  D i j = Σ_d e i d · (X j d)² - 2 · Σ_d (mu i d · e i d) · X j d + Σ_d (mu i d)² · e i d.  The kernel first takes the
  column means of X and X² in one pallas_call (accumulated over four tiles of 4096 rows) and then, in a second one,
  n i = Σ_d e i d · mean(X²) d - 2 · Σ_d (mu i d · e i d) · mean(X) d + Σ_d (mu i d)² · e i d.  The two agree because the
  mean over j is linear — which is a law of the reals, not of the extended reals: the inputs' finiteness (and the
  finiteness of exp at a real) is what the precondition supplies.

  The frames of the two kernel programs are the generated ones; the reference's is its generated run with the result
  dropped.  The kernel's value is read off the run of its five segments (the launch theorem called once more with the
  result buffer in the post), folded back through the host operations and the two regions' accumulators, and read entry
  by entry; the reference's value is its generated run read one operation at a time.
-/
import proofs.«172152_j10651518894749_1_alg».proof.Defs
import proofs.«172152_j10651518894749_1_alg».proof.Proof.Gen.Kernel
import proofs.«172152_j10651518894749_1_alg».proof.Proof.Gen.Kernel.Skeleton
import proofs.«172152_j10651518894749_1_alg».proof.Proof.Gen.Kernel.Launch
import proofs.«172152_j10651518894749_1_alg».proof.Proof.Gen.Kernel.Points
import proofs.«172152_j10651518894749_1_alg».proof.Proof.Gen.Kernel.Frame
import proofs.«172152_j10651518894749_1_alg».proof.Proof.Gen.KernelIdeal
import proofs.«172152_j10651518894749_1_alg».proof.Proof.Gen.KernelIdeal.Skeleton
import proofs.«172152_j10651518894749_1_alg».proof.Proof.Gen.KernelIdeal.Launch
import proofs.«172152_j10651518894749_1_alg».proof.Proof.Gen.KernelIdeal.Points
import proofs.«172152_j10651518894749_1_alg».proof.Proof.Gen.KernelIdeal.Frame
import proofs.«172152_j10651518894749_1_alg».proof.Proof.Gen.ReferenceIdeal
import proofs.«172152_j10651518894749_1_alg».proof.Proof.Gen.Pre_finite_inputs
import proofs.«172152_j10651518894749_1_alg».proof.Proof.Gen.ReferenceIdeal.Run
import proofs.«172152_j10651518894749_1_alg».proof.Proof.Gen.ReferenceIdeal.Read
import proofs.«172152_j10651518894749_1_alg».proof.Proof.KRun
import proofs.«172152_j10651518894749_1_alg».proof.Proof.KValue
import proofs.«172152_j10651518894749_1_alg».proof.Proof.RefSide
import proofs.«172152_j10651518894749_1_alg».proof.Proof.Algebra
import proofs.«172152_j10651518894749_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the kernel's closed formula of the (agreeing) arguments: the kernel's by the fold
    through @main, the reference's by its run read back, and the two formulas agree on finite inputs. -/
theorem algebraic : Cert.algebraic_KernelIdeal_ReferenceIdeal := by
  intro m ρ m' ρ' hpre hagree
  refine ⟨fun c _ => Cert.Loss.kerLoss
      (Cert.Loss.mat (Cert.KernelIdeal.Fold.flat (m ((c.tc : Thread Cert.KernelIdeal.nD Cert.KernelIdeal.τ).loc Cert.KernelIdeal.main_arg0))))
      (Cert.Loss.mat (m ((c.tc : Thread Cert.KernelIdeal.nD Cert.KernelIdeal.τ).loc Cert.KernelIdeal.main_arg1)))
      (Cert.Loss.mat (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (Cert.KernelIdeal.Val.kernel_value m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2⟩ := Cert.Loss.real_of_pre _ _ _ (hpre c)
    rw [(hagree c).1, (hagree c).2.1, (hagree c).2.2]
    refine (Cert.ReferenceIdeal.Read.val_main_v30_eq (F := Ideal) _ _ _).trans ?_
    rw [Cert.ReferenceIdeal.RefValue.ref_value]
    funext _
    exact (Cert.Loss.kerLoss_eq_refLoss _ _ _
      (fun i d => Cert.ReferenceIdeal.RefValue.flat_real _ h0 _) (fun i d => h1 _) (fun i d => h2 _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
